-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S1024x512 .f32) (main_arg1 : FVec F S1024x2048 .f32) (main_arg2 : FVec F S512x2048 .f32) (main_arg3 : FVec F S2048x2048 .f32) (main_arg4 : FVec F S2048 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S1024x512 : Shape := ⟨2, ![1024, 512]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S512x512 : Shape := ⟨2, ![512, 512]⟩
abbrev S2048x512 : Shape := ⟨2, ![2048, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x2048, .f32⟩
  | .hbm, ⟨3, _⟩ => ⟨S2048x2048, .f32⟩
  | .hbm, ⟨4, _⟩ => ⟨S2048, .f32⟩
  | .hbm, ⟨5, _⟩ => ⟨S1x2048, .f32⟩
  | .hbm, ⟨6, _⟩ => ⟨S1024x2048, .f32⟩
  | .local _ .vmem, ⟨0, _⟩ => ⟨S1024x512, .f32⟩
  | .local _ .vmem, ⟨1, _⟩ => ⟨S1024x2048, .f32⟩
  | .local _ .vmem, ⟨2, _⟩ => ⟨S512x512, .f32⟩
  | .local _ .vmem, ⟨3, _⟩ => ⟨S512x512, .f32⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x2048.size a
  hwx0_2 : ∀ i : grid0.Coords, EltTy.bits .f32 = 32 ∨ (Rect.block (s := S512x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x2048.size a
  hwx0_3 : ∀ i : grid0.Coords, EltTy.bits .f32 = 32 ∨ (Rect.block (s := S2048x2048) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x2048.size a
  hwx0_5 : ∀ i : grid0.Coords, EltTy.bits .f32 = 32 ∨ (Rect.block (s := S1024x2048) S1024x512.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x2048, .f32⟩
  | .hbm, ⟨3, _⟩ => ⟨S2048x2048, .f32⟩
  | .hbm, ⟨4, _⟩ => ⟨S2048, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1x2048, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S1024x2048 : S_.BroadcastsInDim S1024x2048 (![] : Fin 0 → Fin S1024x2048.rank)
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  dot_S1024x512_S512x2048_S1024x2048_1_0_0_1_n_n_wf : DotDims.WF S1024x512 S512x2048 S1024x2048 [1] [0] [0] [1] [] []
  dot_S1024x2048_S2048x2048_S1024x2048_1_0_0_1_n_n_wf : DotDims.WF S1024x2048 S2048x2048 S1024x2048 [1] [0] [0] [1] [] []

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

class Facts : Prop extends Facts₀ where

variable [Facts]
-- ==== Proof.CellSpec.lean ====
/-
  The reservoir cell as one function of its five arrays, and the law that joins its two arrangements.

  With x the 1024 × 512 input batch, p the 1024 × 2048 previous state, W the 512 × 2048 input weights, U the
  2048 × 2048 recurrent weights and b the 2048 biases, the new state at row i and unit j is

      tanh ( ∑ q < 512, x (i, q) · W (q, j)  +  ∑ q < 2048, p (i, q) · U (q, j)  +  b j )

  over the extended reals. One program adds the three terms as (input part + state part) + bias and stops there. The
  other adds them as (input part + bias) + state part, multiplies the result by the leak rate 1 and adds the previous
  state times 1 - leak = 0. Addition of extended reals is commutative and associative, zero annihilates every extended
  real (infinite ones too), and one is neutral for the product, so the two arrangements agree with no assumption on
  the entries.
-/
import Idealize.ShloMosaic.PureOps.Ideal.Laws
import Idealize.ShloMosaic.Lib.IdealHost
import Idealize.ShloMosaic.Lib.ValueIdx

noncomputable section

open scoped BigOperators

namespace Cert.CellSpec

open Idealize.ShloMosaic Idealize.ShloMosaic.ValueIdx

/-- The sum of the input part, the state part and the bias at row `i` and unit `j`, before the activation. -/
def drive (x : FVec Ideal ⟨2, ![1024, 512]⟩ .f32) (p : FVec Ideal ⟨2, ![1024, 2048]⟩ .f32)
    (W : FVec Ideal ⟨2, ![512, 2048]⟩ .f32) (U : FVec Ideal ⟨2, ![2048, 2048]⟩ .f32)
    (b : FVec Ideal ⟨1, ![2048]⟩ .f32) (i : Fin 1024) (j : Fin 2048) : EReal :=
  (∑ q : Fin 512, x (ix2 i q) * W (ix2 q j)) + (∑ q : Fin 2048, p (ix2 i q) * U (ix2 q j)) + b (ix1 j)

/-- The new state: the hyperbolic tangent of the drive, entry by entry. -/
def cell (x : FVec Ideal ⟨2, ![1024, 512]⟩ .f32) (p : FVec Ideal ⟨2, ![1024, 2048]⟩ .f32)
    (W : FVec Ideal ⟨2, ![512, 2048]⟩ .f32) (U : FVec Ideal ⟨2, ![2048, 2048]⟩ .f32)
    (b : FVec Ideal ⟨1, ![2048]⟩ .f32) : FVec Ideal ⟨2, ![1024, 2048]⟩ .f32 :=
  fun e => Ideal.tanh (drive x p W U b (e 0) (e 1))

theorem cell_apply (x : FVec Ideal ⟨2, ![1024, 512]⟩ .f32) (p : FVec Ideal ⟨2, ![1024, 2048]⟩ .f32)
    (W : FVec Ideal ⟨2, ![512, 2048]⟩ .f32) (U : FVec Ideal ⟨2, ![2048, 2048]⟩ .f32)
    (b : FVec Ideal ⟨1, ![2048]⟩ .f32) (i : Fin 1024) (j : Fin 2048) :
    cell x p W U b (ix2 i j) = Ideal.tanh (drive x p W U b i j) := rfl

/-- The leaky arrangement with leak rate one: the previous state's entry `s` times the zero word, plus the activation
    of (input part + bias) + state part times the one word, is the activation of (input part + state part) + bias.
    Nothing is asked of `s`: zero times any extended real is zero. -/
theorem leak_one (s a r c : EReal) :
    s * Ideal.ofBits .f32 0x00000000#32 + Ideal.tanh (a + c + r) * Ideal.ofBits .f32 0x3F800000#32
      = Ideal.tanh (a + r + c) := by
  rw [Ideal.ofBits_zero_f32, Ideal.ofBits_one_f32, mul_zero, zero_add, mul_one, add_right_comm]

end Cert.CellSpec
-- ==== Proof.RefCell.lean ====
/-
  The reference program's result is the cell.

  Read one operation at a time at row `i` and unit `j`, the reference's last array holds

      p (i, j) · 0  +  tanh ( (∑ q, x (i, q) · W (q, j) + b j) + ∑ q, p (i, q) · U (q, j) ) · 1 :

  its two matrix products are plain sums of products over the contracted axis, the bias is spread along the rows
  (first to a 1 × 2048 array, then to all 1024 rows, each step reading unit `j`), and the two scalars 0 and 1 are spread
  over the whole array. The law of the specification turns this into the cell's entry.
-/
import proofs.«103596_g24232205484530_cont_sun_c4_855_10_alg».proof.Proof.Gen.ReferenceIdeal.Read
import proofs.«103596_g24232205484530_cont_sun_c4_855_10_alg».proof.Proof.CellSpec

noncomputable section

open scoped BigOperators

namespace Cert.RefCell

open Cert.ReferenceIdeal Cert.ReferenceIdeal.Read Idealize.ShloMosaic Idealize.ShloMosaic.ValueIdx Cert.CellSpec

/-- The left factor of the input product at entry (i, j), position k, is x (i, k). -/
theorem left_in (i : Fin 1024) (j : Fin 2048) (k : Fin 512) : lidx_main_v0 (ix2 i j) k = ix2 i k :=
  funext fun a => Fin.ext (by match a with | ⟨0, _⟩ => rfl | ⟨1, _⟩ => rfl)

/-- The right factor of the input product at entry (i, j), position k, is W (k, j). -/
theorem right_in (i : Fin 1024) (j : Fin 2048) (k : Fin 512) : ridx_main_v0 (ix2 i j) k = ix2 k j :=
  funext fun a => Fin.ext (by match a with | ⟨0, _⟩ => rfl | ⟨1, _⟩ => rfl)

/-- The left factor of the state product at entry (i, j), position k, is p (i, k). -/
theorem left_st (i : Fin 1024) (j : Fin 2048) (k : Fin 2048) : lidx_main_v1 (ix2 i j) k = ix2 i k :=
  funext fun a => Fin.ext (by match a with | ⟨0, _⟩ => rfl | ⟨1, _⟩ => rfl)

/-- The right factor of the state product at entry (i, j), position k, is U (k, j). -/
theorem right_st (i : Fin 1024) (j : Fin 2048) (k : Fin 2048) : ridx_main_v1 (ix2 i j) k = ix2 k j :=
  funext fun a => Fin.ext (by match a with | ⟨0, _⟩ => rfl | ⟨1, _⟩ => rfl)

/-- The bias spread over the rows is read, at entry (i, j), at unit j. -/
theorem bias_at (i : Fin 1024) (j : Fin 2048) : idx_main_v4 (idx_main_v5 (ix2 i j)) = ix1 j :=
  funext fun a => Fin.ext (by match a with | ⟨0, _⟩ => rfl)

/-- The reference's result array is the cell of the five argument arrays. -/
theorem ref_is_cell (x0 : FVec Ideal S1024x512 .f32) (x1 : FVec Ideal S1024x2048 .f32) (x2 : FVec Ideal S512x2048 .f32)
    (x3 : FVec Ideal S2048x2048 .f32) (x4 : FVec Ideal S2048 .f32) :
    val_main_v11 (F := Ideal) x0 x1 x2 x3 x4 = cell x0 x1 x2 x3 x4 := by
  funext e
  obtain ⟨i, j, rfl⟩ : ∃ (i : Fin 1024) (j : Fin 2048), e = ix2 i j := ⟨e 0, e 1, eq_ix2 e⟩
  rw [val_main_v11_apply, val_main_v3_apply, val_main_v2_apply, val_main_cst_apply, val_main_v10_apply,
    val_main_v9_apply, val_main_cst_0_apply, val_main_v8_apply, val_main_v7_apply, val_main_v6_apply,
    val_main_v0_apply, val_main_v5_apply, val_main_v4_apply, val_main_v1_apply, cell_apply]
  simp only [left_in, right_in, left_st, right_st, bias_at, Ideal.mulf_def, Ideal.addf_def,
    Ideal.hostUnary_tanh_def, Ideal.ofBits_def]
  exact leak_one _ _ _ _

end Cert.RefCell
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KernelBlock.lean ====
/-
  One grid step of the kernel, read at an entry.

  At a grid step the body holds the whole 1024 × 512 input batch x, a 512 × 512 block W' of the input weights, the
  whole 1024 × 2048 previous state p, a 2048 × 512 block U' of the recurrent weights and a 1 × 512 block b' of the
  bias row. It multiplies x by W' and p by U', each product accumulated into an all-zero array, adds the two products,
  adds the bias block repeated along the 1024 rows, and applies the hyperbolic tangent. So at row r and column s of
  its 1024 × 512 result the body leaves

      tanh ( ∑ k < 512, x (r, k) · W' (k, s)  +  ∑ k < 2048, p (r, k) · U' (k, s)  +  b' (0, s) ).
-/
import proofs.«103596_g24232205484530_cont_sun_c4_855_10_alg».proof.Proof.Gen.KernelIdeal.Skeleton
import proofs.«103596_g24232205484530_cont_sun_c4_855_10_alg».proof.Proof.LibDotPlain
import Idealize.ShloMosaic.Lib.Pipeline.Value
import Idealize.ShloMosaic.Lib.ValueIdx

noncomputable section

open scoped BigOperators

namespace Cert.KernelBlock

open Cert.KernelIdeal Cert.KernelIdeal.Gen Idealize.ShloMosaic Idealize.ShloMosaic.ValueIdx Cert.LibDotPlain

/-- The bias block, kept in its 1 × 512 shape and repeated along the rows, is read at (r, s) at its entry (0, s). -/
theorem bias_rows (v7 : Vec Ideal S1x512 .f32) (r : Fin 1024) (s : Fin 512) :
    broadcastTo S1024x512 (shapeCast S1x512 v7 shapeCasts_S1x512_S1x512) broadcasts_S1x512_S1024x512 (ix2 r s)
      = v7 (ix2 0 s) := by
  rw [shapeCast_self]
  exact broadcastTo_apply v7 broadcasts_S1x512_S1024x512 (ix2 r s) (ix2 0 s) (fun a => match a with
    | ⟨0, _⟩ => by show 0 = if (1 : Nat) = 1 then 0 else r.val; rw [if_pos rfl]
    | ⟨1, _⟩ => by show s.val = if (512 : Nat) = 1 then 0 else s.val; rw [if_neg (by decide)])

/-- The body's stored value at row r and column s of its block. -/
theorem step_apply (v0 : Vec Ideal S1024x512 .f32) (v1 : Vec Ideal S512x512 .f32) (v3 : Vec Ideal S1024x2048 .f32)
    (v4 : Vec Ideal S2048x512 .f32) (v7 : Vec Ideal S1x512 .f32) (r : Fin 1024) (s : Fin 512) :
    k0_pay1 (F := Ideal) v0 v1 v3 v4 v7 (ix2 r s)
      = Ideal.tanh ((∑ k : Fin 512, v0 (ix2 r k) * v1 (ix2 k s)) + (∑ k : Fin 2048, v3 (ix2 r k) * v4 (ix2 k s))
          + v7 (ix2 0 s)) := by
  have hin : FloatOps.matmul (F := Ideal) (φ₁ := .f32) (φ₂ := .f32) dot_S1024x512_S512x512_S1024x512_1_0_0_1_n_n none v0 v1 (constant (F := Ideal) S1024x512 .f32 0x00000000#32) (ix2 r s)
      = ∑ k : Fin 512, v0 (ix2 r k) * v1 (ix2 k s) := matmul_zero_plain 1024 512 512 (φ₁ := .f32) (φ₂ := .f32) none v0 v1 r s
  have hst : FloatOps.matmul (F := Ideal) (φ₁ := .f32) (φ₂ := .f32) dot_S1024x2048_S2048x512_S1024x512_1_0_0_1_n_n none v3 v4 (constant (F := Ideal) S1024x512 .f32 0x00000000#32) (ix2 r s)
      = ∑ k : Fin 2048, v3 (ix2 r k) * v4 (ix2 k s) := matmul_zero_plain 1024 2048 512 (φ₁ := .f32) (φ₂ := .f32) none v3 v4 r s
  unfold k0_pay1
  exact congrArg Ideal.tanh (congrArg₂ (· + ·) (congrArg₂ (· + ·) hin hst) (bias_rows v7 r s))

end Cert.KernelBlock
-- ==== Proof.KernelCell.lean ====
/-
  From the grid steps to the whole array: the kernel's result is the cell.

  The grid has four steps. Step t keeps the whole input batch and the whole previous state, and takes columns
  512·t … 512·t + 511 of the input weights, of the recurrent weights and of the 1 × 2048 bias row (the bias vector,
  reshaped by the host before the call); it writes back columns 512·t … 512·t + 511 of the result. Inside its block,
  at row r and column s, the step's stored value is the cell's entry at row r and unit 512·t + s: every factor it
  reads is the array's entry at the shifted column. The four column blocks tile the 1024 × 2048 result, so after the
  run the result array is the cell of the five argument arrays.
-/
import proofs.«103596_g24232205484530_cont_sun_c4_855_10_alg».proof.Proof.Gen.KernelIdeal.Value
import proofs.«103596_g24232205484530_cont_sun_c4_855_10_alg».proof.Proof.KernelBlock
import proofs.«103596_g24232205484530_cont_sun_c4_855_10_alg».proof.Proof.CellSpec

noncomputable section

open scoped BigOperators

namespace Cert.KernelCell

open Cert.KernelIdeal Cert.KernelIdeal.Gen Idealize.ShloMosaic Idealize.ShloMosaic.TcCoe Idealize.SL.Sem
open Idealize.ShloMosaic.ValueIdx Cert.CellSpec Cert.KernelBlock
open Idealize.ShloMosaic.Pipeline (Dat)

variable (m : (ℓ : Loc nD τ sig) → Buf (Elt Ideal) ℓ) (ρ : Dev nD → PrngReg)

/-! ## The bias row the region finds -/

/-- Before the call the host reshapes the 2048 biases to one row of 2048; its entry (0, j) is bias j. -/
theorem bias_row (c : Dev nD) (j : Fin 2048) :
    (V m c main_v0 : S1x2048.Idx → EReal) (ix2 0 j) = (m ((c : Thread nD τ).loc main_arg4) : S2048.Idx → EReal) (ix1 j) := by
  have e : (V m c main_v0 : S1x2048.Idx → EReal) = shapeCast S1x2048 (m ((c : Thread nD τ).loc main_arg4) : S2048.Idx → EReal) shapeCasts_S2048_S1x2048 := by
    dsimp only [Gen.V, Gen.hostOps0]; after_results; rfl
  rw [e]
  refine shapeCast_apply _ shapeCasts_S2048_S1x2048 (ix2 0 j) (ix1 j) ?_
  rw [Shape.rowMajor_val_one, Shape.rowMajor_val_two]
  show j.val = 0 * 2048 + j.val
  omega

/-! ## A step's stored value is the cell's entry at the shifted column -/

/-- Stated over any arrays and any blocks: if along row r the batch and state blocks are the arrays' rows, and at
    column s the weight and bias blocks are the arrays' column j, then the step's value at (r, s) is the cell's
    entry at (r, j). -/
theorem step_is_cell (X : FVec Ideal ⟨2, ![1024, 512]⟩ .f32) (Q : FVec Ideal ⟨2, ![1024, 2048]⟩ .f32)
    (W : FVec Ideal ⟨2, ![512, 2048]⟩ .f32) (U : FVec Ideal ⟨2, ![2048, 2048]⟩ .f32) (b : FVec Ideal ⟨1, ![2048]⟩ .f32)
    (v0 : Vec Ideal S1024x512 .f32) (v1 : Vec Ideal S512x512 .f32) (v3 : Vec Ideal S1024x2048 .f32)
    (v4 : Vec Ideal S2048x512 .f32) (v7 : Vec Ideal S1x512 .f32) (r : Fin 1024) (s : Fin 512) (j : Fin 2048)
    (h0 : ∀ k : Fin 512, v0 (ix2 r k) = X (ix2 r k))
    (h1 : ∀ k : Fin 512, v1 (ix2 k s) = W (ix2 k j))
    (h3 : ∀ k : Fin 2048, v3 (ix2 r k) = Q (ix2 r k))
    (h4 : ∀ k : Fin 2048, v4 (ix2 k s) = U (ix2 k j))
    (h7 : v7 (ix2 0 s) = b (ix1 j)) :
    k0_pay1 (F := Ideal) v0 v1 v3 v4 v7 (ix2 r s) = cell X Q W U b (ix2 r j) := by
  rw [step_apply, cell_apply]
  unfold drive
  simp only [h0, h1, h3, h4, h7]

/-! ## The grid's index maps -/

theorem hz : (![0, 0] : Fin 2 → Nat) = fun _ => 0 := funext fun a => by fin_cases a <;> rfl

/-- Decided over the four steps: the batch and the state are always block (0, 0); the two weight windows and the bias
    window sit in block row 0 and in the block column of the result window; the result window sits in block row 0, and
    its block column is at most 3. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) = 0 ∧ win0_5.index t (1 : Fin 2) ≤ 3 :=
  (by decide +kernel : ∀ t : Fin grid0.N, _)

/-- Every one of the four block columns is some step's. -/
theorem idx_onto : ∀ q : Fin 4, ∃ t : Fin cfg0.N, win0_5.index t = ![0, q.val] :=
  (by decide +kernel : ∀ q : Fin 4, ∃ t : Fin grid0.N, win0_5.index t = ![0, q.val])

/-- The unit that column s of step t's block stands for. -/
def unit (t : Fin cfg0.N) (s : Fin 512) : Fin 2048 :=
  ⟨win0_5.index t (1 : Fin 2) * 512 + s.val, by
    have h := (idx_facts t).2.2.2.2.2.2.2.2.2.2.2
    have hs := s.isLt
    omega⟩

theorem unit_val (t : Fin cfg0.N) (s : Fin 512) : (unit t s).val = win0_5.index t (1 : Fin 2) * 512 + s.val := rfl

/-! ## Step t at (r, s) is the cell at (r, unit t s) -/

theorem step_at (c : Dev nD) (t : Fin cfg0.N) (r : Fin 1024) (s : Fin 512) :
    k0_pay1 (F := Ideal) (iblk m c 0 t) (iblk m c 2 t) (iblk m c 1 t) (iblk m c 3 t) (iblk m c 4 t) (ix2 r s)
      = cell (m ((c : Thread nD τ).loc main_arg0)) (m ((c : Thread nD τ).loc main_arg1)) (m ((c : Thread nD τ).loc main_arg2)) (m ((c : Thread nD τ).loc main_arg3)) (m ((c : Thread nD τ).loc main_arg4)) (ix2 r (unit t s)) := by
  obtain ⟨e00, e01, e10, e11, e20, e21, e30, e31, e40, e41, e50, e51⟩ := idx_facts t
  refine step_is_cell (m ((c : Thread nD τ).loc main_arg0)) (m ((c : Thread nD τ).loc main_arg1)) (m ((c : Thread nD τ).loc main_arg2)) (m ((c : Thread nD τ).loc main_arg3)) (m ((c : Thread nD τ).loc main_arg4))
    (iblk m c 0 t) (iblk m c 2 t) (iblk m c 1 t) (iblk m c 3 t) (iblk m c 4 t) r s (unit t s) ?_ ?_ ?_ ?_ ?_
  · intro k
    show V m c main_arg0 (((cfg0.win 0).blk t).view.emb (ix2 r k)) = _
    rw [V_main_arg0 m c]
    refine congrArg _ (funext fun a => Fin.ext ?_)
    match a with
    | ⟨0, _⟩ => show win0_0.index t (0 : Fin 2) * 1024 + 1 * r.val = r.val; omega
    | ⟨1, _⟩ => show win0_0.index t (1 : Fin 2) * 512 + 1 * k.val = k.val; omega
  · intro k
    show V m c main_arg2 (((cfg0.win 2).blk t).view.emb (ix2 k s)) = _
    rw [V_main_arg2 m c]
    refine congrArg _ (funext fun a => Fin.ext ?_)
    match a with
    | ⟨0, _⟩ => show win0_2.index t (0 : Fin 2) * 512 + 1 * k.val = k.val; omega
    | ⟨1, _⟩ => show win0_2.index t (1 : Fin 2) * 512 + 1 * s.val = win0_5.index t (1 : Fin 2) * 512 + s.val; omega
  · intro k
    show V m c main_arg1 (((cfg0.win 1).blk t).view.emb (ix2 r k)) = _
    rw [V_main_arg1 m c]
    refine congrArg _ (funext fun a => Fin.ext ?_)
    match a with
    | ⟨0, _⟩ => show win0_1.index t (0 : Fin 2) * 1024 + 1 * r.val = r.val; omega
    | ⟨1, _⟩ => show win0_1.index t (1 : Fin 2) * 2048 + 1 * k.val = k.val; omega
  · intro k
    show V m c main_arg3 (((cfg0.win 3).blk t).view.emb (ix2 k s)) = _
    rw [V_main_arg3 m c]
    refine congrArg _ (funext fun a => Fin.ext ?_)
    match a with
    | ⟨0, _⟩ => show win0_3.index t (0 : Fin 2) * 2048 + 1 * k.val = k.val; omega
    | ⟨1, _⟩ => show win0_3.index t (1 : Fin 2) * 512 + 1 * s.val = win0_5.index t (1 : Fin 2) * 512 + s.val; omega
  · show V m c main_v0 (((cfg0.win 4).blk t).view.emb (ix2 0 s)) = _
    have hemb : ((cfg0.win 4).blk t).view.emb (ix2 0 s) = ix2 0 (unit t s) := funext fun a => Fin.ext (by
      match a with
      | ⟨0, _⟩ => show win0_4.index t (0 : Fin 2) * 1 + 1 * 0 = 0; omega
      | ⟨1, _⟩ => show win0_4.index t (1 : Fin 2) * 512 + 1 * s.val = win0_5.index t (1 : Fin 2) * 512 + s.val; omega)
    rw [hemb]
    exact bias_row m c (unit t s)

/-! ## What a step writes back, and the whole array -/

/-- What step t writes back is block t of the cell of the argument arrays. -/
theorem flushed_eq (c : Dev nD) (t : Fin cfg0.N) :
    (dats m 0 c).flushed 5 t = ((cfg0.win 5).blk t).view.read (Elt Ideal)
      (cell (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed5]
  unfold out0_5
  rw [View.canon_unit_zero hz]
  simp only [View.ld_unit_zero (S := S1024x512) hz, View.ld_unit_zero (S := S512x512) hz,
    View.ld_unit_zero (S := S1024x2048) hz, View.ld_unit_zero (S := S2048x512) hz, View.ld_unit_zero (S := S1x512) hz]
  obtain ⟨e00, e01, e10, e11, e20, e21, e30, e31, e40, e41, e50, e51⟩ := idx_facts t
  funext y
  show k0_pay1 (F := Ideal) (iblk m c 0 t) (iblk m c 2 t) (iblk m c 1 t) (iblk m c 3 t) (iblk m c 4 t) y
    = cell (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y)
  have hy : (y : S1024x512.Idx) = ix2 (y 0) (y 1) := eq_ix2 y
  have hemb : ((cfg0.win 5).blk t).view.emb y = ix2 (y 0) (unit t (y 1)) := funext fun a => Fin.ext (by
    match a with
    | ⟨0, _⟩ => show win0_5.index t (0 : Fin 2) * 1024 + 1 * (y 0).val = (y 0).val; omega
    | ⟨1, _⟩ => show win0_5.index t (1 : Fin 2) * 512 + 1 * (y 1).val = win0_5.index t (1 : Fin 2) * 512 + (y 1).val; omega)
  rw [hemb]
  exact (congrArg (k0_pay1 (F := Ideal) (iblk m c 0 t) (iblk m c 2 t) (iblk m c 1 t) (iblk m c 3 t) (iblk m c 4 t)) hy).trans
    (step_at m c t (y 0) (y 1))

/-- An index of the result array is in step t's block iff each coordinate is in the block's range on its axis. -/
theorem mem_blk (t : Fin cfg0.N) (i : S1024x2048.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v1).slice (win0_5.rect t)).set ↔ _
  rw [View.set_slice_whole, Rect.mem_set_unit]
  exact Iff.rfl

/-- The four column blocks tile the result: unit j lies in the block of step j / 512. -/
theorem cover (i : S1024x2048.Idx) :
    ∃ t : Fin cfg0.N, (cfg0.win 5).flush t = true ∧ i ∈ ((cfg0.win 5).blk t).view.set := by
  have hi0 : (i 0).val < 1024 := (i 0).isLt
  have hi1 : (i 1).val < 2048 := (i 1).isLt
  obtain ⟨t, ht⟩ := idx_onto ⟨(i 1).val / 512, by omega⟩
  have q0 : win0_5.index t (0 : Fin 2) = 0 := congrFun ht 0
  have q1 : win0_5.index t (1 : Fin 2) = (i 1).val / 512 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

/-- After the run the result array is the cell of the argument arrays. -/
theorem final (c : Dev nD) :
    (dats m 0 c).arrAt 5 cfg0.N = cell (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (cell (m ((c : Thread nD τ).loc main_arg0)) (m ((c : Thread nD τ).loc main_arg1)) (m ((c : Thread nD τ).loc main_arg2)) (m ((c : Thread nD τ).loc main_arg3)) (m ((c : Thread nD τ).loc main_arg4)))
    (fun t _ => flushed_eq m c t) cover

/-- Every weakly fair execution of the kernel program ends with the result array at the cell of the argument arrays
    and the arguments unchanged. -/
theorem run : θ_run defs (onTc (τ := τ) (main (F := Ideal))) ⟨m, fun _ => 0, ρ⟩ fun r => ∀ c : Dev nD,
      r.2.mem ((c : Thread nD τ).loc main_v1) = cell (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelCell
-- ==== Proof.lean ====
/-
  A reservoir cell with leak rate one: the new state is

      tanh ( inputs · W  +  previous state · U  +  bias ),

  for a 1024 × 512 input batch, a 1024 × 2048 previous state, 512 × 2048 input weights W, 2048 × 2048 recurrent weights
  U and 2048 biases.

  The kernel walks the 2048 units in four blocks of 512 columns. In each step it multiplies the whole batch by the
  step's 512 columns of W and the whole previous state by the step's 512 columns of U, adds the two products, adds the
  step's 512 biases along every row and applies the hyperbolic tangent. Nothing is split along a contracted axis, so
  each entry of a product is one sum over the whole contracted axis.

  The reference forms the two whole products, adds them as (input part + bias) + state part, applies the hyperbolic
  tangent, multiplies by the leak rate 1 and adds the previous state times 1 - leak = 0.

  Over the extended reals both are the same function of the five arrays, entry by entry: the three terms are added in
  another order (addition is commutative and associative), zero annihilates every extended real and one is neutral for
  the product. No entry needs to be finite for this, so the equality of the results does not use the precondition.
  The kernel's idealization rewrote nothing, so there is nothing to preserve beyond the program text itself.
-/
import proofs.«103596_g24232205484530_cont_sun_c4_855_10_alg».proof.Defs
import proofs.«103596_g24232205484530_cont_sun_c4_855_10_alg».proof.Proof.Gen.Kernel
import proofs.«103596_g24232205484530_cont_sun_c4_855_10_alg».proof.Proof.Gen.Kernel.Skeleton
import proofs.«103596_g24232205484530_cont_sun_c4_855_10_alg».proof.Proof.Gen.Kernel.Launch
import proofs.«103596_g24232205484530_cont_sun_c4_855_10_alg».proof.Proof.Gen.Kernel.Points
import proofs.«103596_g24232205484530_cont_sun_c4_855_10_alg».proof.Proof.Gen.Kernel.Frame
import proofs.«103596_g24232205484530_cont_sun_c4_855_10_alg».proof.Proof.Gen.KernelIdeal
import proofs.«103596_g24232205484530_cont_sun_c4_855_10_alg».proof.Proof.Gen.KernelIdeal.Skeleton
import proofs.«103596_g24232205484530_cont_sun_c4_855_10_alg».proof.Proof.Gen.KernelIdeal.Launch
import proofs.«103596_g24232205484530_cont_sun_c4_855_10_alg».proof.Proof.Gen.KernelIdeal.Points
import proofs.«103596_g24232205484530_cont_sun_c4_855_10_alg».proof.Proof.Gen.KernelIdeal.Frame
import proofs.«103596_g24232205484530_cont_sun_c4_855_10_alg».proof.Proof.Gen.ReferenceIdeal
import proofs.«103596_g24232205484530_cont_sun_c4_855_10_alg».proof.Proof.Gen.Pre_finite_inputs
import proofs.«103596_g24232205484530_cont_sun_c4_855_10_alg».proof.Proof.Gen.KernelIdeal.Value
import proofs.«103596_g24232205484530_cont_sun_c4_855_10_alg».proof.Proof.Gen.ReferenceIdeal.Run
import proofs.«103596_g24232205484530_cont_sun_c4_855_10_alg».proof.Proof.Gen.ReferenceIdeal.Read
import proofs.«103596_g24232205484530_cont_sun_c4_855_10_alg».proof.Proof.RefCell
import proofs.«103596_g24232205484530_cont_sun_c4_855_10_alg».proof.Proof.KernelCell
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the cell of the (agreeing) argument arrays in their result array. -/
theorem algebraic : Cert.algebraic_KernelIdeal_ReferenceIdeal := by
  intro m ρ m' ρ' _ hagree
  refine ⟨_, Cert.KernelCell.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.RefCell.ref_is_cell, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
